-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192x2048 .f32) (main_arg5 : FVec F S8192x2048 .f32) (main_arg6 : FVec F S8192 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S8192x2048 .f32) (main_arg5 : FVec F S8192x2048 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S1x8192 : Shape := ⟨2, ![1, 8192]⟩
abbrev S64x128 : Shape := ⟨2, ![64, 128]⟩
abbrev S8192x128 : Shape := ⟨2, ![8192, 128]⟩
abbrev S64x2048 : Shape := ⟨2, ![64, 2048]⟩
abbrev S64x8192 : Shape := ⟨2, ![64, 8192]⟩

abbrev nBuf : Space → Nat
  | .hbm => 11
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S8192x2048, .f32⟩
  | .hbm, ⟨5, _⟩ => ⟨S8192x2048, .f32⟩
  | .hbm, ⟨6, _⟩ => ⟨S8192, .f32⟩
  | .hbm, ⟨7, _⟩ => ⟨S1x8192, .f32⟩
  | .hbm, ⟨8, _⟩ => ⟨S4096x2048, .f32⟩
  | .hbm, ⟨9, _⟩ => ⟨S4096x2048, .f32⟩
  | .hbm, ⟨10, _⟩ => ⟨S4096x2048, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S1x8192, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x8192, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![64, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S8192_S1x8192 : S8192.ShapeCasts S1x8192
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S64x8192 : S1x8192.Broadcasts S64x8192
  slices_S64x8192_o0_0_S64x2048 : S64x8192.Slices ![0, 0] S64x2048
  slices_S64x8192_o0_2048_S64x2048 : S64x8192.Slices ![0, 2048] S64x2048
  slices_S64x8192_o0_4096_S64x2048 : S64x8192.Slices ![0, 4096] S64x2048
  slices_S64x8192_o0_6144_S64x2048 : S64x8192.Slices ![0, 6144] S64x2048
  inb_S64x2048_S64x2048_0_0 : ∀ a, (![0, 0] : Fin 2 → Nat) a + S64x2048.size a ≤ S64x2048.size a
  h_S64x2048 : 0 < S64x2048.numel
  dot_S64x128_S8192x128_S64x8192_1_1_0_0_n_n_wf : DotDims.WF S64x128 S8192x128 S64x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S4096x2048.size a
  hwx0_0 : ∀ i : grid0.Coords, EltTy.bits .f32 = 32 ∨ (Rect.block (s := S4096x2048) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S4096x2048.size a
  hwx0_1 : ∀ i : grid0.Coords, EltTy.bits .f32 = 32 ∨ (Rect.block (s := S4096x2048) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x2048.size a
  hwx0_2 : ∀ i : grid0.Coords, EltTy.bits .f32 = 32 ∨ (Rect.block (s := S8192x2048) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x2048.size a
  hwx0_3 : ∀ i : grid0.Coords, EltTy.bits .f32 = 32 ∨ (Rect.block (s := S8192x2048) S8192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S4096x2048.size a
  hwx0_5 : ∀ i : grid0.Coords, EltTy.bits .f32 = 32 ∨ (Rect.block (s := S4096x2048) S64x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x2048.size a ≤ S4096x2048.size a
  hwx0_6 : ∀ i : grid0.Coords, EltTy.bits .f32 = 32 ∨ (Rect.block (s := S4096x2048) S64x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x2048.size a ≤ S4096x2048.size a
  hwx0_7 : ∀ i : grid0.Coords, EltTy.bits .f32 = 32 ∨ (Rect.block (s := S4096x2048) S64x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x2048.size a ≤ S4096x2048.size a
  hwx0_8 : ∀ i : grid0.Coords, EltTy.bits .f32 = 32 ∨ (Rect.block (s := S4096x2048) S64x2048.size (cc0_transform_8 i) (hinb0_8 i)).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S8192x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S64x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S64x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S64x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_2) S64x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S8192x2048, .f32⟩
  | .hbm, ⟨5, _⟩ => ⟨S8192x2048, .f32⟩
  | .hbm, ⟨6, _⟩ => ⟨S8192, .f32⟩
  | .hbm, ⟨7, _⟩ => ⟨S2048x8192, .f32⟩
  | .hbm, ⟨8, _⟩ => ⟨S4096x8192, .f32⟩
  | .hbm, ⟨9, _⟩ => ⟨S2048x8192, .f32⟩
  | .hbm, ⟨10, _⟩ => ⟨S4096x8192, .f32⟩
  | .hbm, ⟨11, _⟩ => ⟨S4096x8192, .f32⟩
  | .hbm, ⟨12, _⟩ => ⟨S1x8192, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.KPieces.lean ====
/-
  What each control case of the body leaves behind, as values.  The accumulator scratch: the first
  reduction step stores the zero block and then zero plus the step's two partial products; every later
  step stores what the step before left plus its two partial products.  The last step, after its update,
  stores the three output blocks, each a function of the UPDATED accumulator, the bias row and the cell block.
  Every store covers its whole buffer and every load reads a whole buffer, so each buffer ends at the
  payload of its last store, the loads replaced by what the buffers held.
-/
import proofs.«110288_j89867895701841_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First step of a reduction run: the accumulator ends at `0 + (x·w_ihᵀ + h·w_hhᵀ)` of the step's blocks. -/
theorem acc_first (c : Dev nD) (i : grid0.Coords) (arg2 : Memref sig .tc .vmem S64x128 .f32) (harg2 : arg2.IsWhole) (arg3 : Memref sig .tc .vmem S64x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x8192 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S64x2048 .f32) (harg10 : arg10.IsWhole) (arg11 : Memref sig .tc .vmem S64x8192 .f32) (harg11 : arg11.IsWhole) (hc0 : cond0_0 i) (hc1 : ¬cond0_1 i) (x0 : Vec F S64x128 .f32) (x1 : Vec F S64x128 .f32) (x2 : Vec F S8192x128 .f32) (x3 : Vec F S8192x128 .f32) (x4 : Vec F S1x8192 .f32) (x5 : Vec F S64x2048 .f32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S64x8192) hz]
  simp only [View.readAt_eq_ld, harg2.read_unread, harg3.read_unread, harg4.read_unread, harg5.read_unread, harg6.read_unread, harg7.read_unread, harg11.read_unread,
    View.ld_unit_zero (S := S64x128) hz, View.ld_unit_zero (S := S8192x128) hz, View.ld_unit_zero (S := S64x8192) hz, View.ld_unit_zero (S := S1x8192) hz, View.ld_unit_zero (S := S64x2048) hz,
    View.readCov_unit_zero (S := S64x8192) _ hz]

/-- A middle step: the accumulator ends at what it held plus the step's two partial products. -/
theorem acc_mid (c : Dev nD) (i : grid0.Coords) (arg2 : Memref sig .tc .vmem S64x128 .f32) (harg2 : arg2.IsWhole) (arg3 : Memref sig .tc .vmem S64x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x8192 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S64x2048 .f32) (harg10 : arg10.IsWhole) (arg11 : Memref sig .tc .vmem S64x8192 .f32) (harg11 : arg11.IsWhole) (hc0 : ¬cond0_0 i) (hc1 : ¬cond0_1 i) (x0 : Vec F S64x128 .f32) (x1 : Vec F S64x128 .f32) (x2 : Vec F S8192x128 .f32) (x3 : Vec F S8192x128 .f32) (x4 : Vec F S1x8192 .f32) (x5 : Vec F S64x2048 .f32) (xs0 : Vec F S64x8192 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg11.read_unread,
    View.ld_unit_zero (S := S64x128) hz, View.ld_unit_zero (S := S8192x128) hz, View.ld_unit_zero (S := S64x8192) hz, View.ld_unit_zero (S := S1x8192) hz, View.ld_unit_zero (S := S64x2048) hz,
    View.readCov_unit_zero (S := S64x8192) _ hz]

/-- The last step updates the accumulator the same way; -/
theorem acc_last (c : Dev nD) (i : grid0.Coords) (arg2 : Memref sig .tc .vmem S64x128 .f32) (harg2 : arg2.IsWhole) (arg3 : Memref sig .tc .vmem S64x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x8192 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S64x2048 .f32) (harg10 : arg10.IsWhole) (arg11 : Memref sig .tc .vmem S64x8192 .f32) (harg11 : arg11.IsWhole) (hc0 : ¬cond0_0 i) (hc1 : cond0_1 i) (x0 : Vec F S64x128 .f32) (x1 : Vec F S64x128 .f32) (x2 : Vec F S8192x128 .f32) (x3 : Vec F S8192x128 .f32) (x4 : Vec F S1x8192 .f32) (x5 : Vec F S64x2048 .f32) (xs0 : Vec F S64x8192 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg11.read_unread,
    View.ld_unit_zero (S := S64x128) hz, View.ld_unit_zero (S := S8192x128) hz, View.ld_unit_zero (S := S64x8192) hz, View.ld_unit_zero (S := S1x8192) hz, View.ld_unit_zero (S := S64x2048) hz,
    View.readCov_unit_zero (S := S64x8192) _ hz]

/-- and then stores the next hidden state, -/
theorem hid_last (c : Dev nD) (i : grid0.Coords) (arg2 : Memref sig .tc .vmem S64x128 .f32) (harg2 : arg2.IsWhole) (arg3 : Memref sig .tc .vmem S64x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x8192 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S64x2048 .f32) (harg10 : arg10.IsWhole) (arg11 : Memref sig .tc .vmem S64x8192 .f32) (harg11 : arg11.IsWhole) (hc0 : ¬cond0_0 i) (hc1 : cond0_1 i) (x0 : Vec F S64x128 .f32) (x1 : Vec F S64x128 .f32) (x2 : Vec F S8192x128 .f32) (x3 : Vec F S8192x128 .f32) (x4 : Vec F S1x8192 .f32) (x5 : Vec F S64x2048 .f32) (xs0 : Vec F S64x8192 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 = k0_pay6 (k0_pay2 x0 x1 x2 x3 xs0) x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg11.read_unread,
    View.ld_unit_zero (S := S64x128) hz, View.ld_unit_zero (S := S8192x128) hz, View.ld_unit_zero (S := S64x8192) hz, View.ld_unit_zero (S := S1x8192) hz, View.ld_unit_zero (S := S64x2048) hz,
    View.readCov_unit_zero (S := S64x8192) _ hz]

/-- the next cell state, -/
theorem cell_last (c : Dev nD) (i : grid0.Coords) (arg2 : Memref sig .tc .vmem S64x128 .f32) (harg2 : arg2.IsWhole) (arg3 : Memref sig .tc .vmem S64x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x8192 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S64x2048 .f32) (harg10 : arg10.IsWhole) (arg11 : Memref sig .tc .vmem S64x8192 .f32) (harg11 : arg11.IsWhole) (hc0 : ¬cond0_0 i) (hc1 : cond0_1 i) (x0 : Vec F S64x128 .f32) (x1 : Vec F S64x128 .f32) (x2 : Vec F S8192x128 .f32) (x3 : Vec F S8192x128 .f32) (x4 : Vec F S1x8192 .f32) (x5 : Vec F S64x2048 .f32) (xs0 : Vec F S64x8192 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 = k0_pay5 (k0_pay2 x0 x1 x2 x3 xs0) x4 x5 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg11.read_unread,
    View.ld_unit_zero (S := S64x128) hz, View.ld_unit_zero (S := S8192x128) hz, View.ld_unit_zero (S := S64x8192) hz, View.ld_unit_zero (S := S1x8192) hz, View.ld_unit_zero (S := S64x2048) hz,
    View.readCov_unit_zero (S := S64x8192) _ hz]

/-- and the output gate, each from the updated accumulator. -/
theorem gate_last (c : Dev nD) (i : grid0.Coords) (arg2 : Memref sig .tc .vmem S64x128 .f32) (harg2 : arg2.IsWhole) (arg3 : Memref sig .tc .vmem S64x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x8192 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S64x2048 .f32) (harg10 : arg10.IsWhole) (arg11 : Memref sig .tc .vmem S64x8192 .f32) (harg11 : arg11.IsWhole) (hc0 : ¬cond0_0 i) (hc1 : cond0_1 i) (x0 : Vec F S64x128 .f32) (x1 : Vec F S64x128 .f32) (x2 : Vec F S8192x128 .f32) (x3 : Vec F S8192x128 .f32) (x4 : Vec F S1x8192 .f32) (x5 : Vec F S64x2048 .f32) (xs0 : Vec F S64x8192 .f32) :
    out0_C_8 c i arg2 harg2 arg3 harg3 arg4 harg4 arg5 harg5 arg6 harg6 arg7 harg7 arg8 harg8 arg9 harg9 arg10 harg10 arg11 harg11 hc0 hc1 x0 x1 x2 x3 x4 x5 xs0 = k0_pay4 (k0_pay2 x0 x1 x2 x3 xs0) x4 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg11.read_unread,
    View.ld_unit_zero (S := S64x128) hz, View.ld_unit_zero (S := S8192x128) hz, View.ld_unit_zero (S := S64x8192) hz, View.ld_unit_zero (S := S1x8192) hz, View.ld_unit_zero (S := S64x2048) hz,
    View.readCov_unit_zero (S := S64x8192) _ hz]

end Cert.KernelIdeal.Pieces

end
-- ==== Proof.CellSpec.lean ====
/-
  The LSTM cell as ONE function of the argument arrays, index by index, on the extended reals.
  For batch row `b` and gate column `n` the pre-activation is
      pre b n = (∑_k x[b,k] · w_ih[n,k] + ∑_k h[b,k] · w_hh[n,k]) + bias[n],
  the four gates are the column ranges [0,2048) (forget), [2048,4096) (input), [4096,6144) (candidate)
  and [6144,8192) (output), and
      go     = σ(pre_o),
      c_next = σ(pre_f) · c + σ(pre_i) · tanh(pre_g),
      h_next = go · tanh(c_next),
  with σ x = 1 / (1 + e^(-x)) on the extended reals (σ ⊥ = 0, σ ⊤ = 1).
-/
import Idealize.ShloMosaic.PureOps.Ideal
import Idealize.ShloMosaic.Lib.ValueIdx

noncomputable section

namespace Cert.CellSpec

open Idealize.ShloMosaic Idealize.ShloMosaic.ValueIdx

abbrev SBK : Shape := ⟨2, ![4096, 2048]⟩
abbrev SNK : Shape := ⟨2, ![8192, 2048]⟩
abbrev SN : Shape := ⟨1, ![8192]⟩

/-- The pattern of `1.0` denotes the real one. -/
theorem ofBits_one : Ideal.ofBits .f32 0x3F800000#32 = 1 := by
  simp [Ideal.ofBits, Ideal.ieee, -EReal.coe_mul]; norm_num

/-- The gate pre-activation at batch row `b`, gate column `n`: both contractions over the 2048 features, then the bias. -/
def pre (X H : FVec Ideal SBK .f32) (Wi Wh : FVec Ideal SNK .f32) (B : FVec Ideal SN .f32) (b : Fin 4096) (n : Fin 8192) : EReal :=
  (∑ k : Fin 2048, X (ix2 b k) * Wi (ix2 n k) + ∑ k : Fin 2048, H (ix2 b k) * Wh (ix2 n k)) + B (ix1 n)

/-- Column `j` of gate number `q` (0 forget, 1 input, 2 candidate, 3 output) among the 8192 gate columns. -/
def col (q : Fin 4) (j : Fin 2048) : Fin 8192 := ⟨2048 * q.val + j.val, by have := q.isLt; have := j.isLt; omega⟩

/-- The output gate. -/
def outGate (X H : FVec Ideal SBK .f32) (Wi Wh : FVec Ideal SNK .f32) (B : FVec Ideal SN .f32) : FVec Ideal SBK .f32 := fun i =>
  Ideal.logistic (pre X H Wi Wh B (i 0) (col 3 (i 1)))

/-- The next cell state. -/
def cellNext (X H C : FVec Ideal SBK .f32) (Wi Wh : FVec Ideal SNK .f32) (B : FVec Ideal SN .f32) : FVec Ideal SBK .f32 := fun i =>
  Ideal.logistic (pre X H Wi Wh B (i 0) (col 0 (i 1))) * C i
    + Ideal.logistic (pre X H Wi Wh B (i 0) (col 1 (i 1))) * Ideal.tanh (pre X H Wi Wh B (i 0) (col 2 (i 1)))

/-- The next hidden state. -/
def hidNext (X H C : FVec Ideal SBK .f32) (Wi Wh : FVec Ideal SNK .f32) (B : FVec Ideal SN .f32) : FVec Ideal SBK .f32 := fun i =>
  outGate X H Wi Wh B i * Ideal.tanh (cellNext X H C Wi Wh B i)

end Cert.CellSpec

end
-- ==== Proof.KPay.lean ====
/-
  The body's arithmetic read at an index, on the extended reals.
  * The matrix unit's product of a [64,128] block with a [8192,128] block, contracted along both
    blocks' second axis into a zero accumulator, is at (r, n) the sum over the 128 lanes of
    left (r, k) · right (n, k); narrowing the operands' format changes nothing here.
  * One reduction step adds both such products to what the accumulator held.
  * The last step's epilogue adds the bias row, cuts the four gate ranges of 2048 columns, and applies
    σ, σ, tanh, σ and the cell's two products and one sum, element by element.
-/
import proofs.«110288_j89867895701841_1_alg».proof.Proof.Gen.KernelIdeal.Skeleton
import proofs.«110288_j89867895701841_1_alg».proof.Proof.CellSpec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.CellSpec

/-! ## The matrix product at an index -/

theorem lhs_0 (i : S64x8192.Idx) (q : dot_S64x128_S8192x128_S64x8192_1_1_0_0_n_n.contr.Idx) :
    (dot_S64x128_S8192x128_S64x8192_1_1_0_0_n_n.lhsIdx i q 0).val = (i 0).val := by
  unfold DotDims.lhsIdx
  rw [dif_neg (show ¬(0 : Fin S64x128.rank) ∈ dot_S64x128_S8192x128_S64x8192_1_1_0_0_n_n.lhsBatch by decide), dif_pos (show (0 : Fin S64x128.rank) ∈ dot_S64x128_S8192x128_S64x8192_1_1_0_0_n_n.lhsNonContracting by decide)]
  rfl
theorem lhs_1 (i : S64x8192.Idx) (q : dot_S64x128_S8192x128_S64x8192_1_1_0_0_n_n.contr.Idx) :
    (dot_S64x128_S8192x128_S64x8192_1_1_0_0_n_n.lhsIdx i q 1).val = (q ⟨0, by decide⟩).val :=
  dot_S64x128_S8192x128_S64x8192_1_1_0_0_n_n.lhsIdx_val_of_single rfl i q
theorem rhs_0 (i : S64x8192.Idx) (q : dot_S64x128_S8192x128_S64x8192_1_1_0_0_n_n.contr.Idx) :
    (dot_S64x128_S8192x128_S64x8192_1_1_0_0_n_n.rhsIdx i q 0).val = (i 1).val := by
  unfold DotDims.rhsIdx
  rw [dif_neg (show ¬(0 : Fin S8192x128.rank) ∈ dot_S64x128_S8192x128_S64x8192_1_1_0_0_n_n.rhsBatch by decide), dif_pos (show (0 : Fin S8192x128.rank) ∈ dot_S64x128_S8192x128_S64x8192_1_1_0_0_n_n.rhsNonContracting by decide)]
  rfl
theorem rhs_1 (i : S64x8192.Idx) (q : dot_S64x128_S8192x128_S64x8192_1_1_0_0_n_n.contr.Idx) :
    (dot_S64x128_S8192x128_S64x8192_1_1_0_0_n_n.rhsIdx i q 1).val = (q ⟨0, by decide⟩).val :=
  dot_S64x128_S8192x128_S64x8192_1_1_0_0_n_n.rhsIdx_val_of_single rfl i q

/-- The product into the zero accumulator, at output index `i` = (r, n): `∑_k l (r, k) · r (n, k)`. -/
theorem mm_apply (l : FVec Ideal S64x128 .bf16) (r : FVec Ideal S8192x128 .bf16) (i : S64x8192.Idx) :
    matmul dot_S64x128_S8192x128_S64x8192_1_1_0_0_n_n none l r (constant S64x8192 .f32 0x00000000#32) i
      = ∑ k : Fin 128, l (ix2 (i 0) k) * r (ix2 (i 1) k) := by
  simp only [matmul]
  rw [Ideal.matmul_constant_zero_apply, ← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx i ((contrEquiv1 dot_S64x128_S8192x128_S64x8192_1_1_0_0_n_n 128 rfl rfl).symm k) = ix2 (i 0) k := funext fun a => Fin.ext (by
    match a with
    | ⟨0, _⟩ => exact lhs_0 _ _
    | ⟨1, _⟩ => exact (lhs_1 _ _).trans hk)
  have er : dot_S64x128_S8192x128_S64x8192_1_1_0_0_n_n.rhsIdx i ((contrEquiv1 dot_S64x128_S8192x128_S64x8192_1_1_0_0_n_n 128 rfl rfl).symm k) = ix2 (i 1) k := funext fun a => Fin.ext (by
    match a with
    | ⟨0, _⟩ => exact rhs_0 _ _
    | ⟨1, _⟩ => exact (rhs_1 _ _).trans hk)
  rw [el, er]
  rfl

/-! ## The accumulator's reset and step -/

/-- The reset block is zero everywhere. -/
theorem reset_apply (i : S64x8192.Idx) : k0_pay1 (F := Ideal) i = 0 := by
  unfold k0_pay1
  simp only [shapeCast_self]
  show Ideal.ofBits .f32 0x00000000#32 = 0
  exact Ideal.ofBits_zero_f32

/-- One step: what the accumulator held, plus the x-block's product with the w_ih-block, plus the h-block's with the w_hh-block. -/
theorem step_apply (v3 v5 : Vec Ideal S64x128 .f32) (v7 v9 : Vec Ideal S8192x128 .f32) (v13 : Vec Ideal S64x8192 .f32) (i : S64x8192.Idx) :
    k0_pay2 v3 v5 v7 v9 v13 i
      = v13 i + (∑ k : Fin 128, v3 (ix2 (i 0) k) * v7 (ix2 (i 1) k) + ∑ k : Fin 128, v5 (ix2 (i 0) k) * v9 (ix2 (i 1) k)) := by
  unfold k0_pay2
  simp only [shapeCast_self]
  show v13 i + (matmul (F := Ideal) dot_S64x128_S8192x128_S64x8192_1_1_0_0_n_n none (truncf (F := Ideal) .bf16 v3 bitsLt_bf16_f32) (truncf (F := Ideal) .bf16 v7 bitsLt_bf16_f32) (constant (F := Ideal) S64x8192 .f32 0x00000000#32) i
    + matmul (F := Ideal) dot_S64x128_S8192x128_S64x8192_1_1_0_0_n_n none (truncf (F := Ideal) .bf16 v5 bitsLt_bf16_f32) (truncf (F := Ideal) .bf16 v9 bitsLt_bf16_f32) (constant (F := Ideal) S64x8192 .f32 0x00000000#32) i) = _
  rw [mm_apply, mm_apply]
  rfl

/-! ## The epilogue -/

/-- The accumulator plus the bias row broadcast down the 64 rows. -/
theorem bias_apply (v22 : Vec Ideal S64x8192 .f32) (v23 : Vec Ideal S1x8192 .f32) (i : S64x8192.Idx) :
    k0_pay3 v22 v23 i = v22 i + v23 (ix2 0 (i 1)) := by
  unfold k0_pay3
  simp only [shapeCast_self]
  show v22 i + broadcastTo S64x8192 v23 broadcasts_S1x8192_S64x8192 i = _
  rw [broadcastTo_apply v23 broadcasts_S1x8192_S64x8192 i (ix2 0 (i 1)) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])]

/-- The slice of 2048 columns that starts at column `2048·q` reads gate `q`'s column. -/
theorem slice_f (x : S64x8192.Idx → EReal) (h : S64x8192.Slices ![0, 0] S64x2048) (i : S64x2048.Idx) :
    extractStridedSlice S64x2048 ![0, 0] x h i = x (ix2 (i 0) (col 0 (i 1))) :=
  extractStridedSlice_apply _ x h i _ (fun a => match a with
    | ⟨0, _⟩ => by show (i 0).val = 0 + (i 0).val; omega
    | ⟨1, _⟩ => by show 2048 * 0 + (i 1).val = 0 + (i 1).val; omega)
theorem slice_i (x : S64x8192.Idx → EReal) (h : S64x8192.Slices ![0, 2048] S64x2048) (i : S64x2048.Idx) :
    extractStridedSlice S64x2048 ![0, 2048] x h i = x (ix2 (i 0) (col 1 (i 1))) :=
  extractStridedSlice_apply _ x h i _ (fun a => match a with
    | ⟨0, _⟩ => by show (i 0).val = 0 + (i 0).val; omega
    | ⟨1, _⟩ => by show 2048 * 1 + (i 1).val = 2048 + (i 1).val; omega)
theorem slice_g (x : S64x8192.Idx → EReal) (h : S64x8192.Slices ![0, 4096] S64x2048) (i : S64x2048.Idx) :
    extractStridedSlice S64x2048 ![0, 4096] x h i = x (ix2 (i 0) (col 2 (i 1))) :=
  extractStridedSlice_apply _ x h i _ (fun a => match a with
    | ⟨0, _⟩ => by show (i 0).val = 0 + (i 0).val; omega
    | ⟨1, _⟩ => by show 2048 * 2 + (i 1).val = 4096 + (i 1).val; omega)
theorem slice_o (x : S64x8192.Idx → EReal) (h : S64x8192.Slices ![0, 6144] S64x2048) (i : S64x2048.Idx) :
    extractStridedSlice S64x2048 ![0, 6144] x h i = x (ix2 (i 0) (col 3 (i 1))) :=
  extractStridedSlice_apply _ x h i _ (fun a => match a with
    | ⟨0, _⟩ => by show (i 0).val = 0 + (i 0).val; omega
    | ⟨1, _⟩ => by show 2048 * 3 + (i 1).val = 6144 + (i 1).val; omega)

/-- The output gate's block. -/
theorem gate_apply (v22 : Vec Ideal S64x8192 .f32) (v23 : Vec Ideal S1x8192 .f32) (i : S64x2048.Idx) :
    k0_pay4 v22 v23 i = Ideal.logistic (k0_pay3 v22 v23 (ix2 (i 0) (col 3 (i 1)))) := by
  unfold k0_pay4
  show Ideal.logistic (extractStridedSlice S64x2048 ![0, 6144] (k0_pay3 v22 v23) slices_S64x8192_o0_6144_S64x2048 i) = _
  rw [slice_o]

/-- The next cell state's block. -/
theorem cell_apply (v22 : Vec Ideal S64x8192 .f32) (v23 : Vec Ideal S1x8192 .f32) (v35 : Vec Ideal S64x2048 .f32) (i : S64x2048.Idx) :
    k0_pay5 v22 v23 v35 i
      = Ideal.logistic (k0_pay3 v22 v23 (ix2 (i 0) (col 0 (i 1)))) * v35 i
        + Ideal.logistic (k0_pay3 v22 v23 (ix2 (i 0) (col 1 (i 1)))) * Ideal.tanh (k0_pay3 v22 v23 (ix2 (i 0) (col 2 (i 1)))) := by
  unfold k0_pay5
  show Ideal.logistic (extractStridedSlice S64x2048 ![0, 0] (k0_pay3 v22 v23) slices_S64x8192_o0_0_S64x2048 i) * v35 i
    + Ideal.logistic (extractStridedSlice S64x2048 ![0, 2048] (k0_pay3 v22 v23) slices_S64x8192_o0_2048_S64x2048 i)
      * Ideal.tanh (extractStridedSlice S64x2048 ![0, 4096] (k0_pay3 v22 v23) slices_S64x8192_o0_4096_S64x2048 i) = _
  rw [slice_f, slice_i, slice_g]

/-- The next hidden state's block. -/
theorem hid_apply (v22 : Vec Ideal S64x8192 .f32) (v23 : Vec Ideal S1x8192 .f32) (v35 : Vec Ideal S64x2048 .f32) (i : S64x2048.Idx) :
    k0_pay6 v22 v23 v35 i = k0_pay4 v22 v23 i * Ideal.tanh (k0_pay5 v22 v23 v35 i) := rfl

end Cert.KernelIdeal.Pay

end
-- ==== Proof.KFold.lean ====
/-
  The accumulator across a reduction run, and the three outputs at the run's last step.
  The 1024 grid points are 64 runs of 16 steps: point `t` is step `t % 16` of batch tile `t / 16`.
  At every step the accumulator gains the step's addend
      A_t (r, n) = ∑_k x[64·(t/16) + r, 128·(t%16) + k] · w_ih[n, 128·(t%16) + k]
                 + ∑_k h[64·(t/16) + r, 128·(t%16) + k] · w_hh[n, 128·(t%16) + k],
  starting from zero at the run's first step, so after step `j` of the run it holds
  `0 + ∑_{s ≤ j} A_{16·(t/16)+s}`; the last step's outputs are the epilogue of that sum, the bias row and the cell block.
-/
import proofs.«110288_j89867895701841_1_alg».proof.Proof.Gen.KernelIdeal.Value
import proofs.«110288_j89867895701841_1_alg».proof.Proof.KPieces
import proofs.«110288_j89867895701841_1_alg».proof.Proof.KPay
import Idealize.ShloMosaic.Lib.Pipeline.Value
import Idealize.ShloMosaic.Lib.ValueIdx

set_option maxRecDepth 16384

noncomputable section

namespace Cert.KernelIdeal.Fold

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ)

/-! ## The step's input blocks, at their literal types -/

abbrev xblk (c : Dev nD) (t : Fin cfg0.N) : Vec Ideal S64x128 .f32 := iblk m c 0 t
abbrev hblk (c : Dev nD) (t : Fin cfg0.N) : Vec Ideal S64x128 .f32 := iblk m c 1 t
abbrev wiblk (c : Dev nD) (t : Fin cfg0.N) : Vec Ideal S8192x128 .f32 := iblk m c 2 t
abbrev whblk (c : Dev nD) (t : Fin cfg0.N) : Vec Ideal S8192x128 .f32 := iblk m c 3 t
abbrev bblk (c : Dev nD) (t : Fin cfg0.N) : Vec Ideal S1x8192 .f32 := iblk m c 4 t
abbrev cblk (c : Dev nD) (t : Fin cfg0.N) : Vec Ideal S64x2048 .f32 := iblk m c 5 t

/-- Point `n`'s addend to the accumulator (zero past the grid, where it is never used). -/
def addend (c : Dev nD) (n : ℕ) : S64x8192.Idx → EReal := fun i =>
  if h : n < cfg0.N then
    ∑ k : Fin 128, xblk m c ⟨n, h⟩ (ix2 (i 0) k) * wiblk m c ⟨n, h⟩ (ix2 (i 1) k)
      + ∑ k : Fin 128, hblk m c ⟨n, h⟩ (ix2 (i 0) k) * whblk m c ⟨n, h⟩ (ix2 (i 1) k)
  else 0

/-! ## What a point leaves in the accumulator -/

theorem sc_first (c : Dev nD) (n : ℕ) (hb : n < cfg0.N) (h0 : n % 16 = 0) (h1 : ¬n % 16 = 15) (acc : Vec Ideal S64x8192 .f32) :
    scAt0_0 m c n hb acc = k0_pay2 (xblk m c ⟨n, hb⟩) (hblk m c ⟨n, hb⟩) (wiblk m c ⟨n, hb⟩) (whblk m c ⟨n, hb⟩) (k0_pay1 (F := Ideal)) := by
  unfold scAt0_0
  rw [dif_pos h0, dif_neg h1]
  exact Pieces.acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))

theorem sc_mid (c : Dev nD) (n : ℕ) (hb : n < cfg0.N) (h0 : ¬n % 16 = 0) (h1 : ¬n % 16 = 15) (acc : Vec Ideal S64x8192 .f32) :
    scAt0_0 m c n hb acc = k0_pay2 (xblk m c ⟨n, hb⟩) (hblk m c ⟨n, hb⟩) (wiblk m c ⟨n, hb⟩) (whblk m c ⟨n, hb⟩) acc := by
  unfold scAt0_0
  rw [dif_neg h0, dif_neg h1]
  exact Pieces.acc_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc

theorem sc_last (c : Dev nD) (n : ℕ) (hb : n < cfg0.N) (h0 : ¬n % 16 = 0) (h1 : n % 16 = 15) (acc : Vec Ideal S64x8192 .f32) :
    scAt0_0 m c n hb acc = k0_pay2 (xblk m c ⟨n, hb⟩) (hblk m c ⟨n, hb⟩) (wiblk m c ⟨n, hb⟩) (whblk m c ⟨n, hb⟩) acc := by
  unfold scAt0_0
  rw [dif_neg h0, dif_pos h1]
  exact Pieces.acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc

/-- A run's first point leaves zero plus its addend. -/
theorem sc_first_apply (c : Dev nD) (n : ℕ) (hb : n < cfg0.N) (h0 : n % 16 = 0) (acc : Vec Ideal S64x8192 .f32) (i : S64x8192.Idx) :
    scAt0_0 m c n hb acc i = 0 + addend m c n i := by
  rw [sc_first m c n hb h0 (by omega) acc, Pay.step_apply, Pay.reset_apply]
  unfold addend
  rw [dif_pos hb]

/-- Every later point of the run leaves what it found plus its addend. -/
theorem sc_step_apply (c : Dev nD) (n : ℕ) (hb : n < cfg0.N) (h0 : ¬n % 16 = 0) (acc : Vec Ideal S64x8192 .f32) (i : S64x8192.Idx) :
    scAt0_0 m c n hb acc i = acc i + addend m c n i := by
  by_cases h1 : n % 16 = 15
  · rw [sc_last m c n hb h0 h1 acc, Pay.step_apply]
    unfold addend
    rw [dif_pos hb]
  · rw [sc_mid m c n hb h0 h1 acc, Pay.step_apply]
    unfold addend
    rw [dif_pos hb]

/-- THE ACCUMULATOR after point `t`: zero plus the addends of its run's points up to `t`. -/
theorem acc_at (c : Dev nD) (t : Fin cfg0.N) (i : S64x8192.Idx) :
    (outsAt0 m c t.val t.isLt).2.2.2 i
      = 0 + ∑ s ∈ Finset.range (t.val % 16 + 1), addend m c (16 * (t.val / 16) + s) i := by
  rw [soutsAt0_0_eq m c t]
  exact Pipeline.accAt_add_apply (fun n h => scAt0_0 m c n h (VS0_0.read (Elt Ideal) VS0_0.junk)) (scAt0_0 m c)
    (fun _ => (0 : EReal)) (addend m c) (16 * (t.val / 16)) 15
    (fun h i => sc_first_apply m c _ h (by omega) _ i)
    (fun n h acc i hlo hhi => sc_step_apply m c n h (by omega) acc i)
    (t.val % 16) (by omega) _ i

/-! ## The outputs at a run's last point -/

theorem out_hid (c : Dev nD) (t : Fin cfg0.N) (h0 : ¬t.val % 16 = 0) (h1 : t.val % 16 = 15) :
    (outsAt0 m c t.val t.isLt).1 = k0_pay6 ((outsAt0 m c t.val t.isLt).2.2.2) (bblk m c t) (cblk m c t) := by
  rw [outsAt0_C m c t h0 h1]
  dsimp only
  rw [Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2]
  exact Pieces.hid_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2

theorem out_cell (c : Dev nD) (t : Fin cfg0.N) (h0 : ¬t.val % 16 = 0) (h1 : t.val % 16 = 15) :
    (outsAt0 m c t.val t.isLt).2.1 = k0_pay5 ((outsAt0 m c t.val t.isLt).2.2.2) (bblk m c t) (cblk m c t) := by
  rw [outsAt0_C m c t h0 h1]
  dsimp only
  rw [Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2]
  exact Pieces.cell_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2

theorem out_gate (c : Dev nD) (t : Fin cfg0.N) (h0 : ¬t.val % 16 = 0) (h1 : t.val % 16 = 15) :
    (outsAt0 m c t.val t.isLt).2.2.1 = k0_pay4 ((outsAt0 m c t.val t.isLt).2.2.2) (bblk m c t) := by
  rw [outsAt0_C m c t h0 h1]
  dsimp only
  rw [Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2]
  exact Pieces.gate_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2

end Cert.KernelIdeal.Fold

end
-- ==== Proof.KBlocks.lean ====
/-
  Where each window's block sits in its array.  Point `t` is step `t % 16` of batch tile `t / 16`:
  the x and h blocks are rows [64·(t/16), +64) × features [128·(t%16), +128); the two weight blocks are
  all 8192 gate rows × the same 128 features; the cell block and the three output blocks are rows
  [64·(t/16), +64) × all 2048 columns; the bias block is the whole bias row, which the host reshaped
  from the bias vector.
-/
import proofs.«110288_j89867895701841_1_alg».proof.Proof.KFold
import Idealize.ShloMosaic.Lib.StableHlo.Run

set_option maxRecDepth 16384

noncomputable section

namespace Cert.KernelIdeal.Blocks

open Cert.KernelIdeal Cert.KernelIdeal.Gen Cert.KernelIdeal.Fold Idealize.ShloMosaic Idealize.ShloMosaic.TcCoe Idealize.SL.Sem
open Idealize.ShloMosaic.ValueIdx

variable (m : (ℓ : Loc nD τ sig) → Buf (Elt Ideal) ℓ)

/-- The nine index maps at every grid point, decided over the grid. -/
theorem idx_facts : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = 0 ∧ win0_2.index t (1 : Fin 2) = t.val % 16
    ∧ win0_3.index t (0 : Fin 2) = 0 ∧ win0_3.index t (1 : Fin 2) = t.val % 16
    ∧ win0_4.index t (0 : Fin 2) = 0 ∧ win0_4.index t (1 : Fin 2) = 0
    ∧ win0_5.index t (0 : Fin 2) = t.val / 16 ∧ win0_5.index t (1 : Fin 2) = 0
    ∧ win0_6.index t (0 : Fin 2) = t.val / 16 ∧ win0_6.index t (1 : Fin 2) = 0
    ∧ win0_7.index t (0 : Fin 2) = t.val / 16 ∧ win0_7.index t (1 : Fin 2) = 0
    ∧ win0_8.index t (0 : Fin 2) = t.val / 16 ∧ win0_8.index t (1 : Fin 2) = 0 :=
  (by decide +kernel : ∀ t : Fin grid0.N, _)

/-- The x block. -/
theorem xblk_apply (c : Dev nD) (t : Fin cfg0.N) (r : Fin 64) (k : Fin 128) (R : Fin 4096) (K : Fin 2048)
    (hR : R.val = 64 * (t.val / 16) + r.val) (hK : K.val = 128 * (t.val % 16) + k.val) :
    xblk m c t (ix2 r k) = m ((c : Thread nD τ).loc main_arg0) (ix2 R K) := by
  obtain ⟨e0, e1, -⟩ := idx_facts t
  show ((cfg0.win 0).blk t).view.read (Elt Ideal) (V m c main_arg0) (ix2 r k) = _
  rw [View.read_apply]
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 64 + 1 * r.val = R.val; rw [e0, hR]; omega
  | ⟨1, _⟩ => show win0_0.index t (1 : Fin 2) * 128 + 1 * k.val = K.val; rw [e1, hK]; omega

/-- The h block. -/
theorem hblk_apply (c : Dev nD) (t : Fin cfg0.N) (r : Fin 64) (k : Fin 128) (R : Fin 4096) (K : Fin 2048)
    (hR : R.val = 64 * (t.val / 16) + r.val) (hK : K.val = 128 * (t.val % 16) + k.val) :
    hblk m c t (ix2 r k) = m ((c : Thread nD τ).loc main_arg1) (ix2 R K) := by
  obtain ⟨-, -, e0, e1, -⟩ := idx_facts t
  show ((cfg0.win 1).blk t).view.read (Elt Ideal) (V m c main_arg1) (ix2 r k) = _
  rw [View.read_apply]
  show V m c main_arg1 (((cfg0.win 1).blk t).view.emb (ix2 r k)) = _
  rw [V_main_arg1]
  refine congrArg (m ((c : Thread nD τ).loc main_arg1)) (funext fun a => Fin.ext ?_)
  match a with
  | ⟨0, _⟩ => show win0_1.index t (0 : Fin 2) * 64 + 1 * r.val = R.val; rw [e0, hR]; omega
  | ⟨1, _⟩ => show win0_1.index t (1 : Fin 2) * 128 + 1 * k.val = K.val; rw [e1, hK]; omega

/-- The w_ih block. -/
theorem wiblk_apply (c : Dev nD) (t : Fin cfg0.N) (n : Fin 8192) (k : Fin 128) (K : Fin 2048)
    (hK : K.val = 128 * (t.val % 16) + k.val) :
    wiblk m c t (ix2 n k) = m ((c : Thread nD τ).loc main_arg4) (ix2 n K) := by
  obtain ⟨-, -, -, -, e0, e1, -⟩ := idx_facts t
  show ((cfg0.win 2).blk t).view.read (Elt Ideal) (V m c main_arg4) (ix2 n k) = _
  rw [View.read_apply]
  show V m c main_arg4 (((cfg0.win 2).blk t).view.emb (ix2 n k)) = _
  rw [V_main_arg4]
  refine congrArg (m ((c : Thread nD τ).loc main_arg4)) (funext fun a => Fin.ext ?_)
  match a with
  | ⟨0, _⟩ => show win0_2.index t (0 : Fin 2) * 8192 + 1 * n.val = n.val; rw [e0]; omega
  | ⟨1, _⟩ => show win0_2.index t (1 : Fin 2) * 128 + 1 * k.val = K.val; rw [e1, hK]; omega

/-- The w_hh block. -/
theorem whblk_apply (c : Dev nD) (t : Fin cfg0.N) (n : Fin 8192) (k : Fin 128) (K : Fin 2048)
    (hK : K.val = 128 * (t.val % 16) + k.val) :
    whblk m c t (ix2 n k) = m ((c : Thread nD τ).loc main_arg5) (ix2 n K) := by
  obtain ⟨-, -, -, -, -, -, e0, e1, -⟩ := idx_facts t
  show ((cfg0.win 3).blk t).view.read (Elt Ideal) (V m c main_arg5) (ix2 n k) = _
  rw [View.read_apply]
  show V m c main_arg5 (((cfg0.win 3).blk t).view.emb (ix2 n k)) = _
  rw [V_main_arg5]
  refine congrArg (m ((c : Thread nD τ).loc main_arg5)) (funext fun a => Fin.ext ?_)
  match a with
  | ⟨0, _⟩ => show win0_3.index t (0 : Fin 2) * 8192 + 1 * n.val = n.val; rw [e0]; omega
  | ⟨1, _⟩ => show win0_3.index t (1 : Fin 2) * 128 + 1 * k.val = K.val; rw [e1, hK]; omega

/-- The cell block. -/
theorem cblk_apply (c : Dev nD) (t : Fin cfg0.N) (y : S64x2048.Idx) (I : S4096x2048.Idx)
    (hI0 : (I 0).val = 64 * (t.val / 16) + (y 0).val) (hI1 : (I 1).val = (y 1).val) :
    cblk m c t y = m ((c : Thread nD τ).loc main_arg2) I := by
  obtain ⟨-, -, -, -, -, -, -, -, -, -, e0, e1, -⟩ := idx_facts t
  show ((cfg0.win 5).blk t).view.read (Elt Ideal) (V m c main_arg2) y = _
  rw [View.read_apply]
  show V m c main_arg2 (((cfg0.win 5).blk t).view.emb y) = _
  rw [V_main_arg2]
  refine congrArg (m ((c : Thread nD τ).loc main_arg2)) (funext fun a => Fin.ext ?_)
  match a with
  | ⟨0, _⟩ => show win0_5.index t (0 : Fin 2) * 64 + 1 * (y 0).val = (I 0).val; rw [e0, hI0]; omega
  | ⟨1, _⟩ => show win0_5.index t (1 : Fin 2) * 2048 + 1 * (y 1).val = (I 1).val; rw [e1, hI1]; omega

/-- The host's one operation before the call: the bias vector reshaped to one row. -/
theorem V_bias (c : Dev nD) :
    (V m c main_v0 : S1x8192.Idx → EReal) = shapeCast S1x8192 (m ((c : Thread nD τ).loc main_arg6)) shapeCasts_S8192_S1x8192 := by
  dsimp only [V, hostOps0]
  after_results
  rfl

/-- The bias block is the bias vector. -/
theorem bblk_apply (c : Dev nD) (t : Fin cfg0.N) (n : Fin 8192) :
    bblk m c t (ix2 0 n) = m ((c : Thread nD τ).loc main_arg6) (ix1 n) := by
  obtain ⟨-, -, -, -, -, -, -, -, e0, e1, -⟩ := idx_facts t
  show ((cfg0.win 4).blk t).view.read (Elt Ideal) (V m c main_v0) (ix2 0 n) = _
  rw [View.read_apply, V_bias]
  refine shapeCast_apply _ _ _ (ix1 n) ?_
  rw [Shape.rowMajor_val_one, Shape.rowMajor_val_two]
  show n.val = (win0_4.index t (0 : Fin 2) * 1 + 1 * 0) * 8192 + (win0_4.index t (1 : Fin 2) * 8192 + 1 * n.val)
  rw [e0, e1]; omega

end Cert.KernelIdeal.Blocks

end
-- ==== Proof.ChunkSum.lean ====
/-
  A sum over a contraction axis of length `S * K`, cut into `S` consecutive chunks of length `K`:
  in any commutative additive monoid (the extended reals among them: no finiteness is asked)
  the chunk sums, added up chunk by chunk, are the whole sum; and two contractions accumulated
  chunk by chunk side by side, from zero, are the two whole contractions added.
-/
import Mathlib.Algebra.BigOperators.Fin
import Mathlib.Logic.Equiv.Fin.Basic

namespace Cert.ChunkSum

open Finset

/-- `∑_{s < S} ∑_{j < K} f (K·s + j) = ∑_{k < S·K} f k`: position `k` lies in chunk `k / K` at offset `k % K`. -/
theorem sum_chunks {β : Type*} [AddCommMonoid β] (S K : ℕ) (f : ℕ → β) :
    ∑ s ∈ Finset.range S, ∑ j : Fin K, f (K * s + j.val) = ∑ k : Fin (S * K), f k.val := by
  rw [← Fin.sum_univ_eq_sum_range (fun s => ∑ j : Fin K, f (K * s + j.val)) S,
    ← Equiv.sum_comp finProdFinEquiv (fun k : Fin (S * K) => f k.val), Fintype.sum_prod_type]
  refine Finset.sum_congr rfl fun s _ => Finset.sum_congr rfl fun j _ => ?_
  rw [finProdFinEquiv_apply_val, Nat.add_comm]

/-- Two contractions accumulated together, chunk by chunk, into a zero accumulator:
    `0 + ∑_{s < S} (∑_j a (K·s + j) + ∑_j b (K·s + j)) = ∑_k a k + ∑_k b k`. -/
theorem acc_two {β : Type*} [AddCommMonoid β] (S K : ℕ) (a b : ℕ → β) :
    (0 : β) + ∑ s ∈ Finset.range S, (∑ j : Fin K, a (K * s + j.val) + ∑ j : Fin K, b (K * s + j.val))
      = ∑ k : Fin (S * K), a k.val + ∑ k : Fin (S * K), b k.val := by
  rw [zero_add, Finset.sum_add_distrib, sum_chunks, sum_chunks]

end Cert.ChunkSum
-- ==== Proof.KValue.lean ====
/-
  The kernel's three result arrays as the cell of `CellSpec` of the argument arrays.
  At the last step of batch tile `q` the accumulator holds, at (r, n),
      0 + ∑_{s < 16} (∑_{j < 128} x[64q+r, 128s+j]·w_ih[n, 128s+j] + ∑_{j < 128} h[64q+r, 128s+j]·w_hh[n, 128s+j]),
  which is `∑_{k < 2048} x[64q+r, k]·w_ih[n, k] + ∑_{k < 2048} h[64q+r, k]·w_hh[n, k]` (sums in a commutative
  monoid regroup freely: no finiteness is needed); the epilogue adds the bias and applies the gates, so the three blocks
  written back are rows [64q, 64q+64) of the cell's three results, and the 64 tiles' blocks cover the arrays.
-/
import proofs.«110288_j89867895701841_1_alg».proof.Proof.KBlocks
import proofs.«110288_j89867895701841_1_alg».proof.Proof.ChunkSum
import proofs.«110288_j89867895701841_1_alg».proof.Proof.CellSpec

set_option maxRecDepth 16384

noncomputable section

namespace Cert.KernelIdeal.CellValue

open Cert.KernelIdeal Cert.KernelIdeal.Gen Cert.KernelIdeal.Value Cert.KernelIdeal.Fold Cert.KernelIdeal.Blocks
open Idealize.ShloMosaic Idealize.ShloMosaic.TcCoe Idealize.SL.Sem Idealize.ShloMosaic.ValueIdx Cert.CellSpec

variable (m : (ℓ : Loc nD τ sig) → Buf (Elt Ideal) ℓ) (ρ : Dev nD → PrngReg)

/-! ## The argument arrays -/

abbrev X (c : Dev nD) : FVec Ideal SBK .f32 := m ((c : Thread nD τ).loc main_arg0)
abbrev Hs (c : Dev nD) : FVec Ideal SBK .f32 := m ((c : Thread nD τ).loc main_arg1)
abbrev Cs (c : Dev nD) : FVec Ideal SBK .f32 := m ((c : Thread nD τ).loc main_arg2)
abbrev Wi (c : Dev nD) : FVec Ideal SNK .f32 := m ((c : Thread nD τ).loc main_arg4)
abbrev Wh (c : Dev nD) : FVec Ideal SNK .f32 := m ((c : Thread nD τ).loc main_arg5)
abbrev Bs (c : Dev nD) : FVec Ideal SN .f32 := m ((c : Thread nD τ).loc main_arg6)

/-- Feature `k`'s term of the x contraction at row `b`, gate column `n` (zero past the 2048 features). -/
def tX (c : Dev nD) (b : Fin 4096) (n : Fin 8192) (k : ℕ) : EReal :=
  if h : k < 2048 then X m c (ix2 b ⟨k, h⟩) * Wi m c (ix2 n ⟨k, h⟩) else 0
/-- Feature `k`'s term of the h contraction. -/
def tH (c : Dev nD) (b : Fin 4096) (n : Fin 8192) (k : ℕ) : EReal :=
  if h : k < 2048 then Hs m c (ix2 b ⟨k, h⟩) * Wh m c (ix2 n ⟨k, h⟩) else 0

/-- Step `s` of batch tile `q` adds the two contractions' terms of features [128·s, 128·s + 128). -/
theorem addend_eq (c : Dev nD) (q s : ℕ) (hq : q < 64) (hs : s < 16) (r : Fin 64) (n : Fin 8192) (R : Fin 4096) (hR : R.val = 64 * q + r.val) :
    addend m c (16 * q + s) (ix2 r n)
      = ∑ j : Fin 128, tX m c R n (128 * s + j.val) + ∑ j : Fin 128, tH m c R n (128 * s + j.val) := by
  have hN : 16 * q + s < cfg0.N := by rw [show cfg0.N = 1024 from N_0]; omega
  unfold addend
  rw [dif_pos hN]
  show ∑ k : Fin 128, xblk m c ⟨16 * q + s, hN⟩ (ix2 r k) * wiblk m c ⟨16 * q + s, hN⟩ (ix2 n k)
      + ∑ k : Fin 128, hblk m c ⟨16 * q + s, hN⟩ (ix2 r k) * whblk m c ⟨16 * q + s, hN⟩ (ix2 n k) = _
  congr 1
  · refine Finset.sum_congr rfl fun j _ => ?_
    have hj : 128 * s + j.val < 2048 := by have := j.isLt; omega
    unfold tX
    rw [dif_pos hj, xblk_apply m c ⟨16 * q + s, hN⟩ r j R ⟨128 * s + j.val, hj⟩ (by show R.val = 64 * ((16 * q + s) / 16) + r.val; omega) (by show 128 * s + j.val = 128 * ((16 * q + s) % 16) + j.val; omega),
      wiblk_apply m c ⟨16 * q + s, hN⟩ n j ⟨128 * s + j.val, hj⟩ (by show 128 * s + j.val = 128 * ((16 * q + s) % 16) + j.val; omega)]
  · refine Finset.sum_congr rfl fun j _ => ?_
    have hj : 128 * s + j.val < 2048 := by have := j.isLt; omega
    unfold tH
    rw [dif_pos hj, hblk_apply m c ⟨16 * q + s, hN⟩ r j R ⟨128 * s + j.val, hj⟩ (by show R.val = 64 * ((16 * q + s) / 16) + r.val; omega) (by show 128 * s + j.val = 128 * ((16 * q + s) % 16) + j.val; omega),
      whblk_apply m c ⟨16 * q + s, hN⟩ n j ⟨128 * s + j.val, hj⟩ (by show 128 * s + j.val = 128 * ((16 * q + s) % 16) + j.val; omega)]

/-- THE ACCUMULATOR at a run's last point: the two whole contractions. -/
theorem acc_eq (c : Dev nD) (t : Fin cfg0.N) (h1 : t.val % 16 = 15) (r : Fin 64) (n : Fin 8192) (R : Fin 4096) (hR : R.val = 64 * (t.val / 16) + r.val) :
    (outsAt0 m c t.val t.isLt).2.2.2 (ix2 r n)
      = ∑ k : Fin 2048, X m c (ix2 R k) * Wi m c (ix2 n k) + ∑ k : Fin 2048, Hs m c (ix2 R k) * Wh m c (ix2 n k) := by
  have hq : t.val / 16 < 64 := by have h : t.val < 1024 := lt_of_lt_of_eq t.isLt (show cfg0.N = 1024 from N_0); omega
  have e : ∑ s ∈ Finset.range 16, addend m c (16 * (t.val / 16) + s) (ix2 r n)
      = ∑ s ∈ Finset.range 16, (∑ j : Fin 128, tX m c R n (128 * s + j.val) + ∑ j : Fin 128, tH m c R n (128 * s + j.val)) :=
    Finset.sum_congr rfl fun s hs => addend_eq m c (t.val / 16) s hq (Finset.mem_range.mp hs) r n R hR
  rw [acc_at m c t (ix2 r n), h1]
  show (0 : EReal) + ∑ s ∈ Finset.range 16, addend m c (16 * (t.val / 16) + s) (ix2 r n) = _
  rw [e, ChunkSum.acc_two 16 128 (tX m c R n) (tH m c R n)]
  show ∑ k : Fin 2048, tX m c R n k.val + ∑ k : Fin 2048, tH m c R n k.val = _
  refine congrArg₂ (· + ·) (Finset.sum_congr rfl fun k _ => ?_) (Finset.sum_congr rfl fun k _ => ?_)
  · unfold tX
    rw [dif_pos k.isLt]
  · unfold tH
    rw [dif_pos k.isLt]

/-- With the bias: the pre-activation of row `64·(t/16) + r`. -/
theorem pre_at (c : Dev nD) (t : Fin cfg0.N) (h1 : t.val % 16 = 15) (r : Fin 64) (n : Fin 8192) (R : Fin 4096) (hR : R.val = 64 * (t.val / 16) + r.val) :
    k0_pay3 ((outsAt0 m c t.val t.isLt).2.2.2) (bblk m c t) (ix2 r n) = pre (X m c) (Hs m c) (Wi m c) (Wh m c) (Bs m c) R n := by
  rw [Pay.bias_apply]
  show (outsAt0 m c t.val t.isLt).2.2.2 (ix2 r n) + bblk m c t (ix2 0 n) = _
  rw [acc_eq m c t h1 r n R hR, bblk_apply]
  rfl

/-- The output gate's block, element by element. -/
theorem gate_at (c : Dev nD) (t : Fin cfg0.N) (h1 : t.val % 16 = 15) (y : S64x2048.Idx) (I : S4096x2048.Idx)
    (hI0 : (I 0).val = 64 * (t.val / 16) + (y 0).val) (hI1 : (I 1).val = (y 1).val) :
    k0_pay4 ((outsAt0 m c t.val t.isLt).2.2.2) (bblk m c t) y = outGate (X m c) (Hs m c) (Wi m c) (Wh m c) (Bs m c) I := by
  have e1 : y 1 = I 1 := Fin.ext hI1.symm
  rw [Pay.gate_apply, pre_at m c t h1 (y 0) (col 3 (y 1)) (I 0) hI0, e1]
  rfl

/-- The next cell state's block. -/
theorem cell_at (c : Dev nD) (t : Fin cfg0.N) (h1 : t.val % 16 = 15) (y : S64x2048.Idx) (I : S4096x2048.Idx)
    (hI0 : (I 0).val = 64 * (t.val / 16) + (y 0).val) (hI1 : (I 1).val = (y 1).val) :
    k0_pay5 ((outsAt0 m c t.val t.isLt).2.2.2) (bblk m c t) (cblk m c t) y = cellNext (X m c) (Hs m c) (Cs m c) (Wi m c) (Wh m c) (Bs m c) I := by
  have e1 : y 1 = I 1 := Fin.ext hI1.symm
  rw [Pay.cell_apply, pre_at m c t h1 (y 0) (col 0 (y 1)) (I 0) hI0, pre_at m c t h1 (y 0) (col 1 (y 1)) (I 0) hI0,
    pre_at m c t h1 (y 0) (col 2 (y 1)) (I 0) hI0, cblk_apply m c t y I hI0 hI1, e1]
  rfl

/-- The next hidden state's block. -/
theorem hid_at (c : Dev nD) (t : Fin cfg0.N) (h1 : t.val % 16 = 15) (y : S64x2048.Idx) (I : S4096x2048.Idx)
    (hI0 : (I 0).val = 64 * (t.val / 16) + (y 0).val) (hI1 : (I 1).val = (y 1).val) :
    k0_pay6 ((outsAt0 m c t.val t.isLt).2.2.2) (bblk m c t) (cblk m c t) y = hidNext (X m c) (Hs m c) (Cs m c) (Wi m c) (Wh m c) (Bs m c) I := by
  rw [Pay.hid_apply, gate_at m c t h1 y I hI0 hI1, cell_at m c t h1 y I hI0 hI1]
  rfl

/-! ## Output window 6 -/

/-- What the run's last point writes back is its block of the whole-array function. -/
theorem flushed_hid (c : Dev nD) (t : Fin cfg0.N) (hf : (cfg0.win 6).flush t = true) :
    (dats m 0 c).flushed 6 t = ((cfg0.win 6).blk t).view.read (Elt Ideal) (hidNext (X m c) (Hs m c) (Cs m c) (Wi m c) (Wh m c) (Bs m c)) := by
  have h1 : t.val % 16 = 15 := (flush0_6 t).mp hf
  obtain ⟨-, -, -, -, -, -, -, -, -, -, -, -, e0, e1, -⟩ := idx_facts t
  rw [flushed6, out_hid m c t (by omega) h1]
  funext y
  rw [View.read_apply]
  refine hid_at m c t h1 y _ ?_ ?_
  · show win0_6.index t (0 : Fin 2) * 64 + 1 * (y 0).val = 64 * (t.val / 16) + (y 0).val; rw [e0]; omega
  · show win0_6.index t (1 : Fin 2) * 2048 + 1 * (y 1).val = (y 1).val; rw [e1]; omega

/-- An index is in point `t`'s block iff each coordinate is in the block's range on its axis. -/
theorem mem_blk_hid (t : Fin cfg0.N) (i : S4096x2048.Idx) :
    i ∈ ((cfg0.win 6).blk t).view.set ↔ ∀ a : Fin 2, win0_6.index t a * S64x2048.size a ≤ (i a).val ∧ (i a).val < win0_6.index t a * S64x2048.size a + S64x2048.size a := by
  show i ∈ ((View.whole main_v1_0).slice (win0_6.rect t)).set ↔ _
  rw [View.set_slice_whole, Rect.mem_set_unit]
  exact Iff.rfl

/-- Row `b` is written back by the last point of batch tile `b / 64`. -/
theorem cover_hid (i : S4096x2048.Idx) : ∃ t : Fin cfg0.N, (cfg0.win 6).flush t = true ∧ i ∈ ((cfg0.win 6).blk t).view.set := by
  have hi0 : (i 0).val < 4096 := (i 0).isLt
  have hi1 : (i 1).val < 2048 := (i 1).isLt
  have hN : 16 * ((i 0).val / 64) + 15 < cfg0.N := by rw [show cfg0.N = 1024 from N_0]; omega
  obtain ⟨-, -, -, -, -, -, -, -, -, -, -, -, e0, e1, -⟩ := idx_facts ⟨16 * ((i 0).val / 64) + 15, hN⟩
  refine ⟨⟨16 * ((i 0).val / 64) + 15, hN⟩, (flush0_6 _).mpr (by show (16 * ((i 0).val / 64) + 15) % 16 = 15; omega), ?_⟩
  rw [mem_blk_hid]
  intro a
  match a with
  | ⟨0, _⟩ =>
    show win0_6.index ⟨16 * ((i 0).val / 64) + 15, hN⟩ (0 : Fin 2) * 64 ≤ (i 0).val ∧ (i 0).val < win0_6.index ⟨16 * ((i 0).val / 64) + 15, hN⟩ (0 : Fin 2) * 64 + 64
    rw [e0]; show (16 * ((i 0).val / 64) + 15) / 16 * 64 ≤ (i 0).val ∧ (i 0).val < (16 * ((i 0).val / 64) + 15) / 16 * 64 + 64; omega
  | ⟨1, _⟩ =>
    show win0_6.index ⟨16 * ((i 0).val / 64) + 15, hN⟩ (1 : Fin 2) * 2048 ≤ (i 1).val ∧ (i 1).val < win0_6.index ⟨16 * ((i 0).val / 64) + 15, hN⟩ (1 : Fin 2) * 2048 + 2048
    rw [e1]; omega

/-- The array after the run. -/
theorem final_hid (c : Dev nD) : (dats m 0 c).arrAt 6 cfg0.N = hidNext (X m c) (Hs m c) (Cs m c) (Wi m c) (Wh m c) (Bs m c) :=
  (dats m 0 c).arrAt_eq_of_cover 6 (hidNext (X m c) (Hs m c) (Cs m c) (Wi m c) (Wh m c) (Bs m c)) (fun t hf => flushed_hid m c t hf) cover_hid

/-! ## Output window 7 -/

/-- What the run's last point writes back is its block of the whole-array function. -/
theorem flushed_cell (c : Dev nD) (t : Fin cfg0.N) (hf : (cfg0.win 7).flush t = true) :
    (dats m 0 c).flushed 7 t = ((cfg0.win 7).blk t).view.read (Elt Ideal) (cellNext (X m c) (Hs m c) (Cs m c) (Wi m c) (Wh m c) (Bs m c)) := by
  have h1 : t.val % 16 = 15 := (flush0_7 t).mp hf
  obtain ⟨-, -, -, -, -, -, -, -, -, -, -, -, -, -, e0, e1, -⟩ := idx_facts t
  rw [flushed7, out_cell m c t (by omega) h1]
  funext y
  rw [View.read_apply]
  refine cell_at m c t h1 y _ ?_ ?_
  · show win0_7.index t (0 : Fin 2) * 64 + 1 * (y 0).val = 64 * (t.val / 16) + (y 0).val; rw [e0]; omega
  · show win0_7.index t (1 : Fin 2) * 2048 + 1 * (y 1).val = (y 1).val; rw [e1]; omega

/-- An index is in point `t`'s block iff each coordinate is in the block's range on its axis. -/
theorem mem_blk_cell (t : Fin cfg0.N) (i : S4096x2048.Idx) :
    i ∈ ((cfg0.win 7).blk t).view.set ↔ ∀ a : Fin 2, win0_7.index t a * S64x2048.size a ≤ (i a).val ∧ (i a).val < win0_7.index t a * S64x2048.size a + S64x2048.size a := by
  show i ∈ ((View.whole main_v1_1).slice (win0_7.rect t)).set ↔ _
  rw [View.set_slice_whole, Rect.mem_set_unit]
  exact Iff.rfl

/-- Row `b` is written back by the last point of batch tile `b / 64`. -/
theorem cover_cell (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  have hN : 16 * ((i 0).val / 64) + 15 < cfg0.N := by rw [show cfg0.N = 1024 from N_0]; omega
  obtain ⟨-, -, -, -, -, -, -, -, -, -, -, -, -, -, e0, e1, -⟩ := idx_facts ⟨16 * ((i 0).val / 64) + 15, hN⟩
  refine ⟨⟨16 * ((i 0).val / 64) + 15, hN⟩, (flush0_7 _).mpr (by show (16 * ((i 0).val / 64) + 15) % 16 = 15; omega), ?_⟩
  rw [mem_blk_cell]
  intro a
  match a with
  | ⟨0, _⟩ =>
    show win0_7.index ⟨16 * ((i 0).val / 64) + 15, hN⟩ (0 : Fin 2) * 64 ≤ (i 0).val ∧ (i 0).val < win0_7.index ⟨16 * ((i 0).val / 64) + 15, hN⟩ (0 : Fin 2) * 64 + 64
    rw [e0]; show (16 * ((i 0).val / 64) + 15) / 16 * 64 ≤ (i 0).val ∧ (i 0).val < (16 * ((i 0).val / 64) + 15) / 16 * 64 + 64; omega
  | ⟨1, _⟩ =>
    show win0_7.index ⟨16 * ((i 0).val / 64) + 15, hN⟩ (1 : Fin 2) * 2048 ≤ (i 1).val ∧ (i 1).val < win0_7.index ⟨16 * ((i 0).val / 64) + 15, hN⟩ (1 : Fin 2) * 2048 + 2048
    rw [e1]; omega

/-- The array after the run. -/
theorem final_cell (c : Dev nD) : (dats m 0 c).arrAt 7 cfg0.N = cellNext (X m c) (Hs m c) (Cs m c) (Wi m c) (Wh m c) (Bs m c) :=
  (dats m 0 c).arrAt_eq_of_cover 7 (cellNext (X m c) (Hs m c) (Cs m c) (Wi m c) (Wh m c) (Bs m c)) (fun t hf => flushed_cell m c t hf) cover_cell

/-! ## Output window 8 -/

/-- What the run's last point writes back is its block of the whole-array function. -/
theorem flushed_gate (c : Dev nD) (t : Fin cfg0.N) (hf : (cfg0.win 8).flush t = true) :
    (dats m 0 c).flushed 8 t = ((cfg0.win 8).blk t).view.read (Elt Ideal) (outGate (X m c) (Hs m c) (Wi m c) (Wh m c) (Bs m c)) := by
  have h1 : t.val % 16 = 15 := (flush0_8 t).mp hf
  obtain ⟨-, -, -, -, -, -, -, -, -, -, -, -, -, -, -, -, e0, e1⟩ := idx_facts t
  rw [flushed8, out_gate m c t (by omega) h1]
  funext y
  rw [View.read_apply]
  refine gate_at m c t h1 y _ ?_ ?_
  · show win0_8.index t (0 : Fin 2) * 64 + 1 * (y 0).val = 64 * (t.val / 16) + (y 0).val; rw [e0]; omega
  · show win0_8.index t (1 : Fin 2) * 2048 + 1 * (y 1).val = (y 1).val; rw [e1]; omega

/-- An index is in point `t`'s block iff each coordinate is in the block's range on its axis. -/
theorem mem_blk_gate (t : Fin cfg0.N) (i : S4096x2048.Idx) :
    i ∈ ((cfg0.win 8).blk t).view.set ↔ ∀ a : Fin 2, win0_8.index t a * S64x2048.size a ≤ (i a).val ∧ (i a).val < win0_8.index t a * S64x2048.size a + S64x2048.size a := by
  show i ∈ ((View.whole main_v1_2).slice (win0_8.rect t)).set ↔ _
  rw [View.set_slice_whole, Rect.mem_set_unit]
  exact Iff.rfl

/-- Row `b` is written back by the last point of batch tile `b / 64`. -/
theorem cover_gate (i : S4096x2048.Idx) : ∃ t : Fin cfg0.N, (cfg0.win 8).flush t = true ∧ i ∈ ((cfg0.win 8).blk t).view.set := by
  have hi0 : (i 0).val < 4096 := (i 0).isLt
  have hi1 : (i 1).val < 2048 := (i 1).isLt
  have hN : 16 * ((i 0).val / 64) + 15 < cfg0.N := by rw [show cfg0.N = 1024 from N_0]; omega
  obtain ⟨-, -, -, -, -, -, -, -, -, -, -, -, -, -, -, -, e0, e1⟩ := idx_facts ⟨16 * ((i 0).val / 64) + 15, hN⟩
  refine ⟨⟨16 * ((i 0).val / 64) + 15, hN⟩, (flush0_8 _).mpr (by show (16 * ((i 0).val / 64) + 15) % 16 = 15; omega), ?_⟩
  rw [mem_blk_gate]
  intro a
  match a with
  | ⟨0, _⟩ =>
    show win0_8.index ⟨16 * ((i 0).val / 64) + 15, hN⟩ (0 : Fin 2) * 64 ≤ (i 0).val ∧ (i 0).val < win0_8.index ⟨16 * ((i 0).val / 64) + 15, hN⟩ (0 : Fin 2) * 64 + 64
    rw [e0]; show (16 * ((i 0).val / 64) + 15) / 16 * 64 ≤ (i 0).val ∧ (i 0).val < (16 * ((i 0).val / 64) + 15) / 16 * 64 + 64; omega
  | ⟨1, _⟩ =>
    show win0_8.index ⟨16 * ((i 0).val / 64) + 15, hN⟩ (1 : Fin 2) * 2048 ≤ (i 1).val ∧ (i 1).val < win0_8.index ⟨16 * ((i 0).val / 64) + 15, hN⟩ (1 : Fin 2) * 2048 + 2048
    rw [e1]; omega

/-- The array after the run. -/
theorem final_gate (c : Dev nD) : (dats m 0 c).arrAt 8 cfg0.N = outGate (X m c) (Hs m c) (Wi m c) (Wh m c) (Bs m c) :=
  (dats m 0 c).arrAt_eq_of_cover 8 (outGate (X m c) (Hs m c) (Wi m c) (Wh m c) (Bs m c)) (fun t hf => flushed_gate m c t hf) cover_gate

/-! ## The run, read -/

/-- Every weakly fair execution ends with the three result arrays at the cell's three results of the argument arrays, the arguments unchanged. -/
theorem run : θ_run defs (onTc (τ := τ) (main (F := Ideal))) ⟨m, fun _ => 0, ρ⟩ fun r => ∀ c : Dev nD,
      r.2.mem ((c : Thread nD τ).loc main_v1_0) = hidNext (X m c) (Hs m c) (Cs m c) (Wi m c) (Wh m c) (Bs m c)
      ∧ r.2.mem ((c : Thread nD τ).loc main_v1_1) = cellNext (X m c) (Hs m c) (Cs m c) (Wi m c) (Wh m c) (Bs m c)
      ∧ r.2.mem ((c : Thread nD τ).loc main_v1_2) = outGate (X m c) (Hs m c) (Wi m c) (Wh m c) (Bs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hid m c), (h c).2.1.trans (final_cell m c),
      (h c).2.2.1.trans (final_gate m c), (h c).2.2.2⟩)
    (Value.run_blocks m ρ)

end Cert.KernelIdeal.CellValue

end
-- ==== Proof.RefCell.lean ====
/-
  The reference's three results, read one operation at a time, are the cell of `CellSpec`:
  the two `dot_general`s against the transposed weights are the two contractions over the 2048
  features (row `b` of x / h against row `n` of w_ih / w_hh), the bias is broadcast along the batch,
  the four slices are the four gate column ranges, and jax's expansion of the sigmoid into
  negate, exponential, add one, divide is `σ` on the extended reals.
-/
import proofs.«110288_j89867895701841_1_alg».proof.Proof.Gen.ReferenceIdeal.Read
import proofs.«110288_j89867895701841_1_alg».proof.Proof.CellSpec

noncomputable section

namespace Cert.ReferenceIdeal.CellRef

open Cert.ReferenceIdeal Cert.ReferenceIdeal.Read Idealize.ShloMosaic Idealize.ShloMosaic.ValueIdx Cert.CellSpec

variable (x0 x1 x2 : (⟨S4096x2048, .f32⟩ : BufTy).Contents (Elt Ideal)) (x4 x5 : (⟨S8192x2048, .f32⟩ : BufTy).Contents (Elt Ideal))
  (x6 : (⟨S8192, .f32⟩ : BufTy).Contents (Elt Ideal))

/-- The sum of the two products plus the broadcast bias, at row `i 0` and gate column `i 1`, is the pre-activation. -/
theorem pre_eq (i : S4096x8192.Idx) :
    val_main_v7 (F := Ideal) x0 x1 x4 x5 x6 i = pre x0 x1 x4 x5 x6 (i 0) (i 1) := by
  have e1 : ∀ k : Fin 2048, lidx_main_v1 i k = ix2 (i 0) k := fun k => funext fun a => Fin.ext (by
    match a with
    | ⟨0, _⟩ => rfl
    | ⟨1, _⟩ => rfl)
  have e2 : ∀ k : Fin 2048, idx_main_v0 (ridx_main_v1 i k) = ix2 (i 1) k := fun k => funext fun a => Fin.ext (by
    match a with
    | ⟨0, _⟩ => rfl
    | ⟨1, _⟩ => rfl)
  have e3 : ∀ k : Fin 2048, lidx_main_v3 i k = ix2 (i 0) k := fun k => funext fun a => Fin.ext (by
    match a with
    | ⟨0, _⟩ => rfl
    | ⟨1, _⟩ => rfl)
  have e4 : ∀ k : Fin 2048, idx_main_v2 (ridx_main_v3 i k) = ix2 (i 1) k := fun k => funext fun a => Fin.ext (by
    match a with
    | ⟨0, _⟩ => rfl
    | ⟨1, _⟩ => rfl)
  have e5 : idx_main_v5 (idx_main_v6 i) = ix1 (i 1) := funext fun a => Fin.ext (by
    match a with
    | ⟨0, _⟩ => rfl)
  rw [val_main_v7_apply, val_main_v4_apply, val_main_v1_apply, val_main_v3_apply, val_main_v6_apply, val_main_v5_apply]
  simp only [val_main_v0_apply, val_main_v2_apply, e1, e2, e3, e4, e5]
  rfl

/-- The four slices read the pre-activation at the four gates' columns. -/
theorem idx_f (i : S4096x2048.Idx) : idx_main_v8 i = ix2 (i 0) (col 0 (i 1)) := funext fun a => Fin.ext (by
  match a with
  | ⟨0, _⟩ => rfl
  | ⟨1, _⟩ => show (i 1).val = 2048 * 0 + (i 1).val; omega)
theorem idx_i (i : S4096x2048.Idx) : idx_main_v9 i = ix2 (i 0) (col 1 (i 1)) := funext fun a => Fin.ext (by
  match a with
  | ⟨0, _⟩ => rfl
  | ⟨1, _⟩ => show 2048 + (i 1).val = 2048 * 1 + (i 1).val; omega)
theorem idx_g (i : S4096x2048.Idx) : idx_main_v10 i = ix2 (i 0) (col 2 (i 1)) := funext fun a => Fin.ext (by
  match a with
  | ⟨0, _⟩ => rfl
  | ⟨1, _⟩ => show 4096 + (i 1).val = 2048 * 2 + (i 1).val; omega)
theorem idx_o (i : S4096x2048.Idx) : idx_main_v11 i = ix2 (i 0) (col 3 (i 1)) := funext fun a => Fin.ext (by
  match a with
  | ⟨0, _⟩ => rfl
  | ⟨1, _⟩ => show 6144 + (i 1).val = 2048 * 3 + (i 1).val; omega)

/-- `1 / (1 + e^(-x))` with both ones spelt as the pattern of `1.0` is `σ x`. -/
theorem sig_eq (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = _
  rw [ofBits_one]
  rfl

/-- The forget gate. -/
theorem gate_f (i : S4096x2048.Idx) :
    val_main_v17 (F := Ideal) x0 x1 x4 x5 x6 i = Ideal.logistic (pre x0 x1 x4 x5 x6 (i 0) (col 0 (i 1))) := by
  rw [val_main_v17_apply, val_main_v16_apply, val_main_cst_0_apply, val_main_v15_apply, val_main_v14_apply, val_main_cst_apply,
    val_main_v13_apply, val_main_v12_apply, val_main_v8_apply, pre_eq, idx_f]
  exact sig_eq _

/-- The input gate. -/
theorem gate_i (i : S4096x2048.Idx) :
    val_main_v23 (F := Ideal) x0 x1 x4 x5 x6 i = Ideal.logistic (pre x0 x1 x4 x5 x6 (i 0) (col 1 (i 1))) := by
  rw [val_main_v23_apply, val_main_v22_apply, val_main_cst_2_apply, val_main_v21_apply, val_main_v20_apply, val_main_cst_1_apply,
    val_main_v19_apply, val_main_v18_apply, val_main_v9_apply, pre_eq, idx_i]
  exact sig_eq _

/-- The candidate. -/
theorem gate_g (i : S4096x2048.Idx) :
    val_main_v24 (F := Ideal) x0 x1 x4 x5 x6 i = Ideal.tanh (pre x0 x1 x4 x5 x6 (i 0) (col 2 (i 1))) := by
  rw [val_main_v24_apply, val_main_v10_apply, pre_eq, idx_g]
  rfl

/-- The output gate is the third result. -/
theorem go_eq : val_main_v30 (F := Ideal) x0 x1 x4 x5 x6 = outGate x0 x1 x4 x5 x6 := by
  funext i
  rw [val_main_v30_apply, val_main_v29_apply, val_main_cst_4_apply, val_main_v28_apply, val_main_v27_apply, val_main_cst_3_apply,
    val_main_v26_apply, val_main_v25_apply, val_main_v11_apply, pre_eq, idx_o]
  exact sig_eq _

/-- The next cell state is the second result. -/
theorem cell_eq : val_main_v33 (F := Ideal) x0 x1 x2 x4 x5 x6 = cellNext x0 x1 x2 x4 x5 x6 := by
  funext i
  rw [val_main_v33_apply, val_main_v31_apply, val_main_v32_apply, gate_f, gate_i, gate_g]
  rfl

/-- The next hidden state is the first result. -/
theorem hid_eq : val_main_v35 (F := Ideal) x0 x1 x2 x4 x5 x6 = hidNext x0 x1 x2 x4 x5 x6 := by
  funext i
  rw [val_main_v35_apply, val_main_v34_apply, go_eq, cell_eq]
  rfl

end Cert.ReferenceIdeal.CellRef

end
-- ==== Proof.lean ====
/-
  The fused LSTM cell against its jnp reference, over the extended reals.

  The kernel walks a 64 × 16 grid: for each tile of 64 batch rows it sweeps the 2048 input features in 16
  chunks of 128, adding into a [64, 8192] accumulator (zeroed at the tile's first chunk) the chunk's share of
  x·w_ihᵀ and of h·w_hhᵀ; at the tile's last chunk it adds the bias, cuts the four gates, applies
  σ, σ, tanh, σ, and writes the tile's rows of h_next = go·tanh(c_next), c_next = σ_f·c + σ_i·tanh_g and go.
  The reference computes both products whole, adds them and the bias, and applies the same gates.

  The two agree because a sum over 2048 features is the sum of its 16 chunk sums and two sums accumulated
  side by side are the two sums added: laws of a commutative additive monoid, so they hold on the extended
  reals as they stand and the finiteness of the inputs is never opened.  Narrowing the matrix unit's operands
  is the identity on exact values, the matrix unit's product into a zero accumulator and the host's
  dot_general are the same finite sum, and the kernel's one-operation sigmoid and jax's expansion
  1 / (1 + e^(-x)) are the same function, limits at the infinities included.

  Frames: the two kernels' are their generated frame certificates; the reference's is its generated run with the
  results dropped.  The idealization rewrote nothing, so `preserves` is trivial.
-/
import proofs.«110288_j89867895701841_1_alg».proof.Defs
import proofs.«110288_j89867895701841_1_alg».proof.Proof.Gen.Kernel
import proofs.«110288_j89867895701841_1_alg».proof.Proof.Gen.Kernel.Skeleton
import proofs.«110288_j89867895701841_1_alg».proof.Proof.Gen.Kernel.Launch
import proofs.«110288_j89867895701841_1_alg».proof.Proof.Gen.Kernel.Points
import proofs.«110288_j89867895701841_1_alg».proof.Proof.Gen.Kernel.Frame
import proofs.«110288_j89867895701841_1_alg».proof.Proof.Gen.KernelIdeal
import proofs.«110288_j89867895701841_1_alg».proof.Proof.Gen.KernelIdeal.Skeleton
import proofs.«110288_j89867895701841_1_alg».proof.Proof.Gen.KernelIdeal.Launch
import proofs.«110288_j89867895701841_1_alg».proof.Proof.Gen.KernelIdeal.Points
import proofs.«110288_j89867895701841_1_alg».proof.Proof.Gen.KernelIdeal.Frame
import proofs.«110288_j89867895701841_1_alg».proof.Proof.Gen.ReferenceIdeal
import proofs.«110288_j89867895701841_1_alg».proof.Proof.Gen.Pre_finite_inputs
import proofs.«110288_j89867895701841_1_alg».proof.Proof.Gen.KernelIdeal.Value
import proofs.«110288_j89867895701841_1_alg».proof.Proof.Gen.ReferenceIdeal.Run
import proofs.«110288_j89867895701841_1_alg».proof.Proof.Gen.ReferenceIdeal.Read
import proofs.«110288_j89867895701841_1_alg».proof.Proof.KValue
import proofs.«110288_j89867895701841_1_alg».proof.Proof.RefCell
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the cell's three results of arguments that agree. -/
theorem algebraic : Cert.algebraic_KernelIdeal_ReferenceIdeal := by
  intro m ρ m' ρ' _ hagree
  refine ⟨_, _, _, Cert.KernelIdeal.CellValue.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v35_eq, Cert.ReferenceIdeal.CellRef.hid_eq,
      (hagree c).1, (hagree c).2.1, (hagree c).2.2.1, (hagree c).2.2.2.2.1, (hagree c).2.2.2.2.2.1, (hagree c).2.2.2.2.2.2]
  · rw [Cert.ReferenceIdeal.Read.val_main_v33_eq, Cert.ReferenceIdeal.CellRef.cell_eq,
      (hagree c).1, (hagree c).2.1, (hagree c).2.2.1, (hagree c).2.2.2.2.1, (hagree c).2.2.2.2.2.1, (hagree c).2.2.2.2.2.2]
  · rw [Cert.ReferenceIdeal.Read.val_main_v30_eq, Cert.ReferenceIdeal.CellRef.go_eq,
      (hagree c).1, (hagree c).2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
